-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 84
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x128, .f32⟩
  | .hbm, ⟨75, _⟩ => ⟨S1700000x1, .f32⟩
  | .hbm, ⟨76, _⟩ => ⟨S1700000x128, .f32⟩
  | .hbm, ⟨77, _⟩ => ⟨S1700000x128, .f32⟩
  | .hbm, ⟨78, _⟩ => ⟨S_, .f32⟩
  | .hbm, ⟨79, _⟩ => ⟨S100000x128, .f32⟩
  | .hbm, ⟨80, _⟩ => ⟨S1700000x1, .i32⟩
  | .hbm, ⟨81, _⟩ => ⟨S100000x128, .f32⟩
  | .hbm, ⟨82, _⟩ => ⟨S1x128, .f32⟩
  | .hbm, ⟨83, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩

abbrev nBuf : Space → Nat
  | .hbm => 88
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x1, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.Dense.lean ====
/-
  The two dense pieces of one graph-convolution layer over the extended reals, index by index.

  * `prod`: the product of an M×K array with a K×N array, (x·w)(r, q) = Σ_k x(r, k) · w(k, q).
  * `biasTanh`: a row of biases added to every row of an M×N array, then tanh: tanh(a(r, q) + b(0, q)).

  What a row-tiled kernel body computes on one block of rows is the same function of that block: narrowing the operands
  to bf16 first changes nothing over the extended reals, accumulating the product onto the zero array adds nothing, a
  shape cast to the same shape is the identity, and a [1, N] row broadcast to [M, N] reads its column's entry.
  A row-tiled product needs no regrouping of the sum: the contracted axis is never split.
-/
import Idealize.ShloMosaic.PureOps.Ideal.Laws
import Idealize.ShloMosaic.Lib.ValueIdx
import Idealize.ShloMosaic.Lib.Pipeline.Value
import proofs.«155350_j2662879724015_1_alg».proof.Proof.LibPlainDot

noncomputable section

open scoped BigOperators

namespace GcnDense

open Idealize.ShloMosaic Idealize.ShloMosaic.ValueIdx

variable (M K N : Nat)

/-- The product of an M×K array with a K×N array: entry (r, q) is the sum over k of x(r, k) · w(k, q). -/
def prod (x : (⟨2, ![M, K]⟩ : Shape).Idx → EReal) (w : (⟨2, ![K, N]⟩ : Shape).Idx → EReal) :
    (⟨2, ![M, N]⟩ : Shape).Idx → EReal :=
  fun j => ∑ k : Fin K, x (ix2 (n0 := M) (n1 := K) ⟨(j 0).val, (j 0).isLt⟩ k) * w (ix2 (n0 := K) (n1 := N) k ⟨(j 1).val, (j 1).isLt⟩)

/-- A row of biases added to every row, then tanh: entry (r, q) is tanh(a(r, q) + b(0, q)). -/
def biasTanh (a : (⟨2, ![M, N]⟩ : Shape).Idx → EReal) (b : (⟨2, ![1, N]⟩ : Shape).Idx → EReal) :
    (⟨2, ![M, N]⟩ : Shape).Idx → EReal :=
  fun j => Ideal.tanh (a j + b (ix2 (n0 := 1) (n1 := N) 0 ⟨(j 1).val, (j 1).isLt⟩))

/-- A kernel's product of its two operands narrowed to bf16, accumulated onto zero, is the plain product. -/
theorem matmul_bf16_zero (x : FVec Ideal ⟨2, ![M, K]⟩ .f32) (w : FVec Ideal ⟨2, ![K, N]⟩ .f32)
    (h : FTy.bits .bf16 < FTy.bits .f32) :
    matmul (DotDims.plain M K N) none (truncf .bf16 x h) (truncf .bf16 w h) (constant ⟨2, ![M, N]⟩ .f32 0x00000000#32)
      = prod M K N x w := by
  funext j
  exact PlainDot.matmul_zero_apply M K N (truncf .bf16 x h) (truncf .bf16 w h) j

/-- The host's product of the two arrays is the plain product. -/
theorem dotGeneral_eq (x : FVec Ideal ⟨2, ![M, K]⟩ .f32) (w : FVec Ideal ⟨2, ![K, N]⟩ .f32) :
    Host.dotGeneral (DotDims.plain M K N) none x w = prod M K N x w := by
  funext j
  simp only [Host.dotGeneral]
  exact PlainDot.dotGeneral_apply M K N _ x w j

/-- A [1, N] row broadcast to [M, N] reads, at (r, q), the row's entry q. -/
theorem broadcastTo_row_apply {α : Type} (v : (⟨2, ![1, N]⟩ : Shape).Idx → α) (h : (⟨2, ![1, N]⟩ : Shape).Broadcasts ⟨2, ![M, N]⟩)
    (j : (⟨2, ![M, N]⟩ : Shape).Idx) :
    broadcastTo ⟨2, ![M, N]⟩ v h j = v (ix2 (n0 := 1) (n1 := N) 0 ⟨(j 1).val, (j 1).isLt⟩) := by
  refine broadcastTo_apply v h j _ fun ax => ?_
  match ax with
  | ⟨0, _⟩ => rfl
  | ⟨1, _⟩ =>
    show (j 1).val = if N = 1 then 0 else (j 1).val
    split
    · have h1 : (j 1).val < N := (j 1).isLt
      omega
    · rfl

/-- A kernel body's bias-and-tanh of a block of rows (each operand first cast to its own shape) is `biasTanh`. -/
theorem biasTanh_payload (a : FVec Ideal ⟨2, ![M, N]⟩ .f32) (b : FVec Ideal ⟨2, ![1, N]⟩ .f32)
    (ha : (⟨2, ![M, N]⟩ : Shape).ShapeCasts ⟨2, ![M, N]⟩) (hb : (⟨2, ![1, N]⟩ : Shape).ShapeCasts ⟨2, ![1, N]⟩)
    (hbc : (⟨2, ![1, N]⟩ : Shape).Broadcasts ⟨2, ![M, N]⟩) :
    tanh (addf (shapeCast ⟨2, ![M, N]⟩ a ha) (broadcastTo ⟨2, ![M, N]⟩ (shapeCast ⟨2, ![1, N]⟩ b hb) hbc))
      = biasTanh M N a b := by
  funext j
  rw [shapeCast_self, shapeCast_self]
  show Ideal.tanh (a j + broadcastTo ⟨2, ![M, N]⟩ b hbc j) = _
  rw [broadcastTo_row_apply]
  rfl

end GcnDense

end
-- ==== Proof.Proj0.lean ====
/-
  The first dense projection (region 0 of @main): node features [100000, 256] times the first weight matrix [256, 128].

  The region runs 20 grid points. Point t stages rows 5000·t … 5000·t + 4999 of the left array (all 256 columns) and the
  whole 256×128 right array, and its body stores the product of the two staged blocks into rows 5000·t … 5000·t + 4999
  of the output. Entry (r, q) of a block product is Σ_k left(5000·t + r, k) · right(k, q): the contracted axis is never
  split, so this is entry (5000·t + r, q) of the product of the whole arrays. The 20 row blocks tile the output, hence the
  output array ends as the product of the two arrays as the region finds them.
-/
import proofs.«155350_j2662879724015_1_alg».proof.Proof.Gen.KernelIdeal.Frame
import proofs.«155350_j2662879724015_1_alg».proof.Proof.Dense
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Proj0

open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: the left operand's and the output's block row is the point, every other block
    coordinate is zero. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored value is the product of its two loaded blocks (a body that first casts its left block to the block's
    own shape computes the same: that cast is the identity). -/
theorem payload_eq (x0 : Vec Ideal S5000x256 .f32) (x1 : Vec Ideal S256x128 .f32) :
    k0_pay1 x0 x1 = GcnDense.prod 5000 256 128 x0 x1 := by
  unfold k0_pay1
  first
    | (rw [shapeCast_self]; exact GcnDense.matmul_bf16_zero 5000 256 128 x0 x1 bitsLt_bf16_f32)
    | exact GcnDense.matmul_bf16_zero 5000 256 128 x0 x1 bitsLt_bf16_f32

/-- The left operand's block at point t is rows 5000·t … of its array. -/
theorem left_block (c : Dev nD) (t : Fin cfg0.N) (x : S5000x256.Idx) (i : S100000x256.Idx)
    (h0 : (i 0).val = 5000 * t.val + (x 0).val) (h1 : (i 1).val = (x 1).val) :
    (iblk0 V c 0 t : Vec Ideal S5000x256 .f32) x = (V c main_arg0 : S100000x256.Idx → EReal) i := by
  obtain ⟨e0, e1, -⟩ := block_indices t
  unfold iblk0
  rw [View.read_apply]
  show V c main_arg0 _ = V c main_arg0 _
  congr 1
  funext a
  apply Fin.ext
  match a with
  | ⟨0, _⟩ => show win0_0.index t 0 * 5000 + 1 * (x 0).val = (i 0).val; rw [e0, h0]; omega
  | ⟨1, _⟩ => show win0_0.index t 1 * 256 + 1 * (x 1).val = (i 1).val; rw [e1, h1]; omega

/-- The right operand's block at every point is its whole array. -/
theorem right_block (c : Dev nD) (t : Fin cfg0.N) (x : S256x128.Idx) :
    (iblk0 V c 1 t : Vec Ideal S256x128 .f32) x = (V c main_arg2 : S256x128.Idx → EReal) x := by
  obtain ⟨-, -, e2, e3, -⟩ := block_indices t
  unfold iblk0
  rw [View.read_apply]
  show V c main_arg2 _ = V c main_arg2 _
  congr 1
  funext a
  apply Fin.ext
  match a with
  | ⟨0, _⟩ => show win0_1.index t 0 * 256 + 1 * (x 0).val = (x 0).val; rw [e2]; omega
  | ⟨1, _⟩ => show win0_1.index t 1 * 128 + 1 * (x 1).val = (x 1).val; rw [e3]; omega

/-- What point t writes back is its block of the product of the two arrays as the region finds them. -/
theorem flushed_eq (c : Dev nD) (t : Fin cfg0.N) :
    (dat0 V c).flushed 2 t
      = ((cfg0.win 2).blk t).view.read (Elt Ideal) (GcnDense.prod 100000 256 128 (V c main_arg0) (V c main_arg2)) := by
  show (cfg0.win 2).cut (grid0.coords t) ((dat0 V c).after 2 t) = _
  rw [after0_2]
  unfold out0_2
  rw [View.canon_unit_zero offsets_zero]
  simp only [View.ld_unit_zero (S := S5000x256) offsets_zero, View.ld_unit_zero (S := S256x128) offsets_zero]
  obtain ⟨-, -, -, -, e4, e5⟩ := block_indices t
  funext j
  show k0_pay1 (iblk0 V c 0 t) (iblk0 V c 1 t) j
    = GcnDense.prod 100000 256 128 (V c main_arg0) (V c main_arg2) (((cfg0.win 2).blk t).view.emb j)
  refine (congrFun (payload_eq (iblk0 V c 0 t) (iblk0 V c 1 t)) j).trans ?_
  refine Finset.sum_congr rfl fun k _ => ?_
  have hl := left_block V c t (ix2 (n0 := 5000) (n1 := 256) ⟨(j 0).val, (j 0).isLt⟩ k)
    (ix2 (n0 := 100000) (n1 := 256) ⟨((((cfg0.win 2).blk t).view.emb j) 0).val, ((((cfg0.win 2).blk t).view.emb j) 0).isLt⟩ k)
    (by show win0_2.index t 0 * 5000 + 1 * (j 0).val = 5000 * t.val + (j 0).val; rw [e4]; omega) rfl
  have hr := right_block V c t (ix2 (n0 := 256) (n1 := 128) k ⟨(j 1).val, (j 1).isLt⟩)
  have hq : (⟨((((cfg0.win 2).blk t).view.emb j) 1).val, ((((cfg0.win 2).blk t).view.emb j) 1).isLt⟩ : Fin 128) = ⟨(j 1).val, (j 1).isLt⟩ :=
    Fin.ext (by show win0_2.index t 1 * 128 + 1 * (j 1).val = (j 1).val; rw [e5]; omega)
  rw [hl, hr, hq]

/-- An index of the output is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every row of the output lies in the block of the point its row number divided by 5000 names. -/
theorem covered (i : S100000x128.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  refine ⟨⟨(i 0).val / 5000, by rw [hN]; omega⟩, flush0_2 _, ?_⟩
  rw [mem_block]
  obtain ⟨-, -, -, -, e4, e5⟩ := block_indices ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- The output array after the region: the product of the two arrays as the region finds them. -/
theorem final (c : Dev nD) :
    (dat0 V c).arrAt 2 cfg0.N = GcnDense.prod 100000 256 128 (V c main_arg0) (V c main_arg2) :=
  (dat0 V c).arrAt_eq_of_cover 2 _ (fun t _ => flushed_eq V c t) covered

end Cert.KernelIdeal.Proj0

end
-- ==== Proof.Act1.lean ====
/-
  The first layer's bias and tanh (region 1 of @main): the aggregated messages [100000, 128] plus the first bias row, then tanh.

  The region runs 20 grid points. Point t stages rows 5000·t … 5000·t + 4999 of the aggregated array and the whole
  [1, 128] bias row, and its body stores tanh(block + bias row broadcast over the rows) into rows 5000·t … 5000·t + 4999
  of the output. Entry (r, q) of that is tanh(agg(5000·t + r, q) + bias(0, q)), which is entry (5000·t + r, q) of the same
  function of the whole arrays. The 20 row blocks tile the output, hence the output array ends as the bias-and-tanh of
  the two arrays as the region finds them.
-/
import proofs.«155350_j2662879724015_1_alg».proof.Proof.Gen.KernelIdeal.Frame
import proofs.«155350_j2662879724015_1_alg».proof.Proof.Dense
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Act1

open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: the aggregated array's and the output's block row is the point, every other
    block coordinate is zero. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's stored value is the bias-and-tanh of its two loaded blocks. -/
theorem payload_eq (x0 : Vec Ideal S5000x128 .f32) (x1 : Vec Ideal S1x128 .f32) :
    k1_pay1 x0 x1 = GcnDense.biasTanh 5000 128 x0 x1 := by
  unfold k1_pay1
  exact GcnDense.biasTanh_payload 5000 128 x0 x1 shapeCasts_S5000x128_S5000x128 shapeCasts_S1x128_S1x128 broadcasts_S1x128_S5000x128

/-- The aggregated array's block at point t is rows 5000·t … of the array. -/
theorem rows_block (c : Dev nD) (t : Fin cfg1.N) (x : S5000x128.Idx) (i : S100000x128.Idx)
    (h0 : (i 0).val = 5000 * t.val + (x 0).val) (h1 : (i 1).val = (x 1).val) :
    (iblk1 V c 0 t : Vec Ideal S5000x128 .f32) x = (V c main_v43 : S100000x128.Idx → EReal) i := by
  obtain ⟨e0, e1, -⟩ := block_indices t
  unfold iblk1
  rw [View.read_apply]
  show V c main_v43 _ = V c main_v43 _
  congr 1
  funext a
  apply Fin.ext
  match a with
  | ⟨0, _⟩ => show win1_0.index t 0 * 5000 + 1 * (x 0).val = (i 0).val; rw [e0, h0]; omega
  | ⟨1, _⟩ => show win1_0.index t 1 * 128 + 1 * (x 1).val = (i 1).val; rw [e1, h1]; omega

/-- The bias row's block at every point is the whole row. -/
theorem bias_block (c : Dev nD) (t : Fin cfg1.N) (x : S1x128.Idx) :
    (iblk1 V c 1 t : Vec Ideal S1x128 .f32) x = (V c main_v44 : S1x128.Idx → EReal) x := by
  obtain ⟨-, -, e2, e3, -⟩ := block_indices t
  unfold iblk1
  rw [View.read_apply]
  show V c main_v44 _ = V c main_v44 _
  congr 1
  funext a
  apply Fin.ext
  match a with
  | ⟨0, _⟩ => show win1_1.index t 0 * 1 + 1 * (x 0).val = (x 0).val; rw [e2]; omega
  | ⟨1, _⟩ => show win1_1.index t 1 * 128 + 1 * (x 1).val = (x 1).val; rw [e3]; omega

/-- What point t writes back is its block of the bias-and-tanh of the two arrays as the region finds them. -/
theorem flushed_eq (c : Dev nD) (t : Fin cfg1.N) :
    (dat1 V c).flushed 2 t
      = ((cfg1.win 2).blk t).view.read (Elt Ideal) (GcnDense.biasTanh 100000 128 (V c main_v43) (V c main_v44)) := by
  show (cfg1.win 2).cut (grid1.coords t) ((dat1 V c).after 2 t) = _
  rw [after1_2]
  unfold out1_2
  rw [View.canon_unit_zero offsets_zero]
  simp only [View.ld_unit_zero (S := S5000x128) offsets_zero, View.ld_unit_zero (S := S1x128) offsets_zero]
  obtain ⟨-, -, -, -, e4, e5⟩ := block_indices t
  funext j
  show k1_pay1 (iblk1 V c 0 t) (iblk1 V c 1 t) j
    = GcnDense.biasTanh 100000 128 (V c main_v43) (V c main_v44) (((cfg1.win 2).blk t).view.emb j)
  refine (congrFun (payload_eq (iblk1 V c 0 t) (iblk1 V c 1 t)) j).trans ?_
  show Ideal.tanh (_ + _) = Ideal.tanh (_ + _)
  have ha := rows_block V c t j (((cfg1.win 2).blk t).view.emb j)
    (by show win1_2.index t 0 * 5000 + 1 * (j 0).val = 5000 * t.val + (j 0).val; rw [e4]; omega)
    (by show win1_2.index t 1 * 128 + 1 * (j 1).val = (j 1).val; rw [e5]; omega)
  have hb := bias_block V c t (ix2 (n0 := 1) (n1 := 128) 0 ⟨(j 1).val, (j 1).isLt⟩)
  have hq : (⟨((((cfg1.win 2).blk t).view.emb j) 1).val, ((((cfg1.win 2).blk t).view.emb j) 1).isLt⟩ : Fin 128) = ⟨(j 1).val, (j 1).isLt⟩ :=
    Fin.ext (by show win1_2.index t 1 * 128 + 1 * (j 1).val = (j 1).val; rw [e5]; omega)
  rw [ha, hb, hq]

/-- An index of the output is in point t's block iff each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every row of the output lies in the block of the point its row number divided by 5000 names. -/
theorem covered (i : S100000x128.Idx) :
    ∃ t : Fin cfg1.N, (cfg1.win 2).flush t = true ∧ i ∈ ((cfg1.win 2).blk t).view.set := by
  have hN : cfg1.N = 20 := N_1
  have hi0 : (i 0).val < 100000 := (i 0).isLt
  have hi1 : (i 1).val < 128 := (i 1).isLt
  refine ⟨⟨(i 0).val / 5000, by rw [hN]; omega⟩, flush1_2 _, ?_⟩
  rw [mem_block]
  obtain ⟨-, -, -, -, e4, e5⟩ := block_indices ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 128 ≤ (i 1).val ∧ (i 1).val < win1_2.index _ (1 : Fin 2) * 128 + 128
    rw [e5]; omega

/-- The output array after the region: the bias-and-tanh of the two arrays as the region finds them. -/
theorem final (c : Dev nD) :
    (dat1 V c).arrAt 2 cfg1.N = GcnDense.biasTanh 100000 128 (V c main_v43) (V c main_v44) :=
  (dat1 V c).arrAt_eq_of_cover 2 _ (fun t _ => flushed_eq V c t) covered

end Cert.KernelIdeal.Act1

end
-- ==== Proof.Proj2.lean ====
/-
  The second dense projection (region 2 of @main): the first layer's output [100000, 128] times the second weight matrix [128, 128].

  The region runs 20 grid points. Point t stages rows 5000·t … 5000·t + 4999 of the left array (all 128 columns) and the
  whole 128×128 right array, and its body stores the product of the two staged blocks into rows 5000·t … 5000·t + 4999
  of the output. Entry (r, q) of a block product is Σ_k left(5000·t + r, k) · right(k, q): the contracted axis is never
  split, so this is entry (5000·t + r, q) of the product of the whole arrays. The 20 row blocks tile the output, hence the
  output array ends as the product of the two arrays as the region finds them.
-/
import proofs.«155350_j2662879724015_1_alg».proof.Proof.Gen.KernelIdeal.Frame
import proofs.«155350_j2662879724015_1_alg».proof.Proof.Dense
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Proj2

open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: the left operand's and the output's block row is the point, every other block
    coordinate is zero. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's stored value is the product of its two loaded blocks (a body that first casts its left block to the block's
    own shape computes the same: that cast is the identity). -/
theorem payload_eq (x0 : Vec Ideal S5000x128 .f32) (x1 : Vec Ideal S128x128 .f32) :
    k2_pay1 x0 x1 = GcnDense.prod 5000 128 128 x0 x1 := by
  unfold k2_pay1
  first
    | (rw [shapeCast_self]; exact GcnDense.matmul_bf16_zero 5000 128 128 x0 x1 bitsLt_bf16_f32)
    | exact GcnDense.matmul_bf16_zero 5000 128 128 x0 x1 bitsLt_bf16_f32

/-- The left operand's block at point t is rows 5000·t … of its array. -/
theorem left_block (c : Dev nD) (t : Fin cfg2.N) (x : S5000x128.Idx) (i : S100000x128.Idx)
    (h0 : (i 0).val = 5000 * t.val + (x 0).val) (h1 : (i 1).val = (x 1).val) :
    (iblk2 V c 0 t : Vec Ideal S5000x128 .f32) x = (V c main_v45 : S100000x128.Idx → EReal) i := by
  obtain ⟨e0, e1, -⟩ := block_indices t
  unfold iblk2
  rw [View.read_apply]
  show V c main_v45 _ = V c main_v45 _
  congr 1
  funext a
  apply Fin.ext
  match a with
  | ⟨0, _⟩ => show win2_0.index t 0 * 5000 + 1 * (x 0).val = (i 0).val; rw [e0, h0]; omega
  | ⟨1, _⟩ => show win2_0.index t 1 * 128 + 1 * (x 1).val = (i 1).val; rw [e1, h1]; omega

/-- The right operand's block at every point is its whole array. -/
theorem right_block (c : Dev nD) (t : Fin cfg2.N) (x : S128x128.Idx) :
    (iblk2 V c 1 t : Vec Ideal S128x128 .f32) x = (V c main_arg4 : S128x128.Idx → EReal) x := by
  obtain ⟨-, -, e2, e3, -⟩ := block_indices t
  unfold iblk2
  rw [View.read_apply]
  show V c main_arg4 _ = V c main_arg4 _
  congr 1
  funext a
  apply Fin.ext
  match a with
  | ⟨0, _⟩ => show win2_1.index t 0 * 128 + 1 * (x 0).val = (x 0).val; rw [e2]; omega
  | ⟨1, _⟩ => show win2_1.index t 1 * 128 + 1 * (x 1).val = (x 1).val; rw [e3]; omega

/-- What point t writes back is its block of the product of the two arrays as the region finds them. -/
theorem flushed_eq (c : Dev nD) (t : Fin cfg2.N) :
    (dat2 V c).flushed 2 t
      = ((cfg2.win 2).blk t).view.read (Elt Ideal) (GcnDense.prod 100000 128 128 (V c main_v45) (V c main_arg4)) := by
  show (cfg2.win 2).cut (grid2.coords t) ((dat2 V c).after 2 t) = _
  rw [after2_2]
  unfold out2_2
  rw [View.canon_unit_zero offsets_zero]
  simp only [View.ld_unit_zero (S := S5000x128) offsets_zero, View.ld_unit_zero (S := S128x128) offsets_zero]
  obtain ⟨-, -, -, -, e4, e5⟩ := block_indices t
  funext j
  show k2_pay1 (iblk2 V c 0 t) (iblk2 V c 1 t) j
    = GcnDense.prod 100000 128 128 (V c main_v45) (V c main_arg4) (((cfg2.win 2).blk t).view.emb j)
  refine (congrFun (payload_eq (iblk2 V c 0 t) (iblk2 V c 1 t)) j).trans ?_
  refine Finset.sum_congr rfl fun k _ => ?_
  have hl := left_block V c t (ix2 (n0 := 5000) (n1 := 128) ⟨(j 0).val, (j 0).isLt⟩ k)
    (ix2 (n0 := 100000) (n1 := 128) ⟨((((cfg2.win 2).blk t).view.emb j) 0).val, ((((cfg2.win 2).blk t).view.emb j) 0).isLt⟩ k)
    (by show win2_2.index t 0 * 5000 + 1 * (j 0).val = 5000 * t.val + (j 0).val; rw [e4]; omega) rfl
  have hr := right_block V c t (ix2 (n0 := 128) (n1 := 128) k ⟨(j 1).val, (j 1).isLt⟩)
  have hq : (⟨((((cfg2.win 2).blk t).view.emb j) 1).val, ((((cfg2.win 2).blk t).view.emb j) 1).isLt⟩ : Fin 128) = ⟨(j 1).val, (j 1).isLt⟩ :=
    Fin.ext (by show win2_2.index t 1 * 128 + 1 * (j 1).val = (j 1).val; rw [e5]; omega)
  rw [hl, hr, hq]

/-- An index of the output is in point t's block iff each coordinate is in the block's range on its axis. -/
theorem mem_block (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Every row of the output lies in the block of the point its row number divided by 5000 names. -/
theorem covered (i : S100000x128.Idx) :
    ∃ t : Fin cfg2.N, (cfg2.win 2).flush t = true ∧ i ∈ ((cfg2.win 2).blk t).view.set := by
  have hN : cfg2.N = 20 := N_2
  have hi0 : (i 0).val < 100000 := (i 0).isLt
  have hi1 : (i 1).val < 128 := (i 1).isLt
  refine ⟨⟨(i 0).val / 5000, by rw [hN]; omega⟩, flush2_2 _, ?_⟩
  rw [mem_block]
  obtain ⟨-, -, -, -, e4, e5⟩ := block_indices ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000; omega
  | ⟨1, _⟩ =>
    show win2_2.index _ (1 : Fin 2) * 128 ≤ (i 1).val ∧ (i 1).val < win2_2.index _ (1 : Fin 2) * 128 + 128
    rw [e5]; omega

/-- The output array after the region: the product of the two arrays as the region finds them. -/
theorem final (c : Dev nD) :
    (dat2 V c).arrAt 2 cfg2.N = GcnDense.prod 100000 128 128 (V c main_v45) (V c main_arg4) :=
  (dat2 V c).arrAt_eq_of_cover 2 _ (fun t _ => flushed_eq V c t) covered

end Cert.KernelIdeal.Proj2

end
-- ==== Proof.Act3.lean ====
/-
  The second layer's bias and tanh (region 3 of @main): the aggregated messages [100000, 128] plus the second bias row, then tanh.

  The region runs 20 grid points. Point t stages rows 5000·t … 5000·t + 4999 of the aggregated array and the whole
  [1, 128] bias row, and its body stores tanh(block + bias row broadcast over the rows) into rows 5000·t … 5000·t + 4999
  of the output. Entry (r, q) of that is tanh(agg(5000·t + r, q) + bias(0, q)), which is entry (5000·t + r, q) of the same
  function of the whole arrays. The 20 row blocks tile the output, hence the output array ends as the bias-and-tanh of
  the two arrays as the region finds them.
-/
import proofs.«155350_j2662879724015_1_alg».proof.Proof.Gen.KernelIdeal.Frame
import proofs.«155350_j2662879724015_1_alg».proof.Proof.Dense
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Act3

open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: the aggregated array's and the output's block row is the point, every other
    block coordinate is zero. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's stored value is the bias-and-tanh of its two loaded blocks. -/
theorem payload_eq (x0 : Vec Ideal S5000x128 .f32) (x1 : Vec Ideal S1x128 .f32) :
    k3_pay1 x0 x1 = GcnDense.biasTanh 5000 128 x0 x1 := by
  unfold k3_pay1
  exact GcnDense.biasTanh_payload 5000 128 x0 x1 shapeCasts_S5000x128_S5000x128 shapeCasts_S1x128_S1x128 broadcasts_S1x128_S5000x128

/-- The aggregated array's block at point t is rows 5000·t … of the array. -/
theorem rows_block (c : Dev nD) (t : Fin cfg3.N) (x : S5000x128.Idx) (i : S100000x128.Idx)
    (h0 : (i 0).val = 5000 * t.val + (x 0).val) (h1 : (i 1).val = (x 1).val) :
    (iblk3 V c 0 t : Vec Ideal S5000x128 .f32) x = (V c main_v59 : S100000x128.Idx → EReal) i := by
  obtain ⟨e0, e1, -⟩ := block_indices t
  unfold iblk3
  rw [View.read_apply]
  show V c main_v59 _ = V c main_v59 _
  congr 1
  funext a
  apply Fin.ext
  match a with
  | ⟨0, _⟩ => show win3_0.index t 0 * 5000 + 1 * (x 0).val = (i 0).val; rw [e0, h0]; omega
  | ⟨1, _⟩ => show win3_0.index t 1 * 128 + 1 * (x 1).val = (i 1).val; rw [e1, h1]; omega

/-- The bias row's block at every point is the whole row. -/
theorem bias_block (c : Dev nD) (t : Fin cfg3.N) (x : S1x128.Idx) :
    (iblk3 V c 1 t : Vec Ideal S1x128 .f32) x = (V c main_v60 : S1x128.Idx → EReal) x := by
  obtain ⟨-, -, e2, e3, -⟩ := block_indices t
  unfold iblk3
  rw [View.read_apply]
  show V c main_v60 _ = V c main_v60 _
  congr 1
  funext a
  apply Fin.ext
  match a with
  | ⟨0, _⟩ => show win3_1.index t 0 * 1 + 1 * (x 0).val = (x 0).val; rw [e2]; omega
  | ⟨1, _⟩ => show win3_1.index t 1 * 128 + 1 * (x 1).val = (x 1).val; rw [e3]; omega

/-- What point t writes back is its block of the bias-and-tanh of the two arrays as the region finds them. -/
theorem flushed_eq (c : Dev nD) (t : Fin cfg3.N) :
    (dat3 V c).flushed 2 t
      = ((cfg3.win 2).blk t).view.read (Elt Ideal) (GcnDense.biasTanh 100000 128 (V c main_v59) (V c main_v60)) := by
  show (cfg3.win 2).cut (grid3.coords t) ((dat3 V c).after 2 t) = _
  rw [after3_2]
  unfold out3_2
  rw [View.canon_unit_zero offsets_zero]
  simp only [View.ld_unit_zero (S := S5000x128) offsets_zero, View.ld_unit_zero (S := S1x128) offsets_zero]
  obtain ⟨-, -, -, -, e4, e5⟩ := block_indices t
  funext j
  show k3_pay1 (iblk3 V c 0 t) (iblk3 V c 1 t) j
    = GcnDense.biasTanh 100000 128 (V c main_v59) (V c main_v60) (((cfg3.win 2).blk t).view.emb j)
  refine (congrFun (payload_eq (iblk3 V c 0 t) (iblk3 V c 1 t)) j).trans ?_
  show Ideal.tanh (_ + _) = Ideal.tanh (_ + _)
  have ha := rows_block V c t j (((cfg3.win 2).blk t).view.emb j)
    (by show win3_2.index t 0 * 5000 + 1 * (j 0).val = 5000 * t.val + (j 0).val; rw [e4]; omega)
    (by show win3_2.index t 1 * 128 + 1 * (j 1).val = (j 1).val; rw [e5]; omega)
  have hb := bias_block V c t (ix2 (n0 := 1) (n1 := 128) 0 ⟨(j 1).val, (j 1).isLt⟩)
  have hq : (⟨((((cfg3.win 2).blk t).view.emb j) 1).val, ((((cfg3.win 2).blk t).view.emb j) 1).isLt⟩ : Fin 128) = ⟨(j 1).val, (j 1).isLt⟩ :=
    Fin.ext (by show win3_2.index t 1 * 128 + 1 * (j 1).val = (j 1).val; rw [e5]; omega)
  rw [ha, hb, hq]

/-- An index of the output is in point t's block iff each coordinate is in the block's range on its axis. -/
theorem mem_block (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Every row of the output lies in the block of the point its row number divided by 5000 names. -/
theorem covered (i : S100000x128.Idx) :
    ∃ t : Fin cfg3.N, (cfg3.win 2).flush t = true ∧ i ∈ ((cfg3.win 2).blk t).view.set := by
  have hN : cfg3.N = 20 := N_3
  have hi0 : (i 0).val < 100000 := (i 0).isLt
  have hi1 : (i 1).val < 128 := (i 1).isLt
  refine ⟨⟨(i 0).val / 5000, by rw [hN]; omega⟩, flush3_2 _, ?_⟩
  rw [mem_block]
  obtain ⟨-, -, -, -, e4, e5⟩ := block_indices ⟨(i 0).val / 5000, by rw [hN]; omega⟩
  intro a
  match a with
  | ⟨0, _⟩ =>
    show win3_2.index _ (0 : Fin 2) * 5000 ≤ (i 0).val ∧ (i 0).val < win3_2.index _ (0 : Fin 2) * 5000 + 5000
    rw [e4]; show (i 0).val / 5000 * 5000 ≤ (i 0).val ∧ (i 0).val < (i 0).val / 5000 * 5000 + 5000; omega
  | ⟨1, _⟩ =>
    show win3_2.index _ (1 : Fin 2) * 128 ≤ (i 1).val ∧ (i 1).val < win3_2.index _ (1 : Fin 2) * 128 + 128
    rw [e5]; omega

/-- The output array after the region: the bias-and-tanh of the two arrays as the region finds them. -/
theorem final (c : Dev nD) :
    (dat3 V c).arrAt 2 cfg3.N = GcnDense.biasTanh 100000 128 (V c main_v59) (V c main_v60) :=
  (dat3 V c).arrAt_eq_of_cover 2 _ (fun t _ => flushed_eq V c t) covered

end Cert.KernelIdeal.Act3

end
-- ==== Proof.Glue.lean ====
/-
  The host-side pieces of a graph-convolution layer that the kernel's program and the reference compute by the SAME
  operations on the edge list, written once, for any float family:

  * `ends0`, `ends1`: the source and the target endpoint of every edge, the 100000 self-loops appended;
  * `deg`: every node's in-degree counting its self-loop (ones scattered onto the targets);
  * `dinv`: deg^(-1/2) where deg > 0, else 0;
  * `wrapIdx`: an index vector with its negative entries shifted by 100000 (an index counted from the end), as a column of start indices;
  * `wgt`: the weight dinv[source] · dinv[target] of every edge;
  * `agg`: rows of an array gathered at the sources, scaled by the edge weights and summed into the targets' rows;
  * `biasRow`: a bias vector [128] as a [1, 128] row.

  `out` composes them with the two dense pieces (Proof/Dense.lean) into the two-layer network over the extended reals.
-/
import proofs.«155350_j2662879724015_1_alg».proof.KernelIdeal
import proofs.«155350_j2662879724015_1_alg».proof.Proof.Dense

noncomputable section

namespace Cert.KernelIdeal.Glue

open Cert.KernelIdeal Idealize.ShloMosaic

variable {F : FTy → Type} [FloatOps F] [Facts]
open Facts₀ Facts

/-- The edges' source endpoints followed by 0 … 99999 (the self-loops). -/
def ends0 (ei : (⟨S2x1600000, .i32⟩ : BufTy).Contents (Elt F)) : (⟨S1700000, .i32⟩ : BufTy).Contents (Elt F) :=
  concatenate S1700000 0 [⟨S1600000, (shapeCast S1600000 (extractStridedSlice S1x1600000 ![0, 0] ei slices_S2x1600000_S1x1600000_0_0) shapeCasts_S1x1600000_S1600000)⟩, ⟨S100000, (iotaInDim S100000 32 0)⟩] concatenates_S1600000_S100000_S1700000_d0

/-- The edges' target endpoints followed by 0 … 99999 (the self-loops). -/
def ends1 (ei : (⟨S2x1600000, .i32⟩ : BufTy).Contents (Elt F)) : (⟨S1700000, .i32⟩ : BufTy).Contents (Elt F) :=
  concatenate S1700000 0 [⟨S1600000, (shapeCast S1600000 (extractStridedSlice S1x1600000 ![1, 0] ei slices_S2x1600000_S1x1600000_1_0) shapeCasts_S1x1600000_S1600000)⟩, ⟨S100000, (iotaInDim S100000 32 0)⟩] concatenates_S1600000_S100000_S1700000_d0

/-- Every node's in-degree, its self-loop counted: a one summed into each edge's target. -/
def deg (ei : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (ends1 ei)) (broadcastInDim S1700000 ![] bcast_S_S1700000 (constant S_ .f32 0x3F800000#32))

/-- deg^(-1/2) where the degree is positive, else 0. -/
def dinv (ei : (⟨S2x1600000, .i32⟩ : BufTy).Contents (Elt F)) : (⟨S100000, .f32⟩ : BufTy).Contents (Elt F) :=
  select (cmpf (F := F) .ogt (deg ei) (broadcastInDim S100000 ![] bcast_S_S100000 (constant S_ .f32 0x00000000#32))) (Host.rsqrt (deg ei)) (broadcastInDim S100000 ![] bcast_S_S100000 (id (constant S_ .f32 0x00000000#32)))

/-- An index vector with its negative entries shifted by 100000, as a column of start indices. -/
def wrapIdx (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- Every edge's weight: dinv at its source times dinv at its target. -/
def wgt (ei : (⟨S2x1600000, .i32⟩ : BufTy).Contents (Elt F)) : (⟨S1700000, .f32⟩ : BufTy).Contents (Elt F) :=
  mulf (Host.gather gather_S100000_S1700000x1_S1700000_n_0_n_n_0_1_1 (dinv ei) (wrapIdx (ends0 ei))) (Host.gather gather_S100000_S1700000x1_S1700000_n_0_n_n_0_1_1 (dinv ei) (wrapIdx (ends1 ei)))

/-- The aggregation: the rows of `xw` at the sources `r`, each scaled by its edge's weight `w`, summed into the rows the
    targets `cl` name. -/
def agg (xw : (⟨S100000x128, .f32⟩ : BufTy).Contents (Elt F)) (r cl : (⟨S1700000, .i32⟩ : BufTy).Contents (Elt F))
    (w : (⟨S1700000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 cl) (mulf (Host.gather gather_S100000x128_S1700000x1_S1700000x128_1_0_n_n_0_1_1128 xw (wrapIdx r)) (broadcastInDim S1700000x128 ![0, 1] bcast_S1700000x1_S1700000x128_0_1 (broadcastInDim S1700000x1 ![0] bcast_S1700000_S1700000x1_0 w)))

/-- A bias vector [128] as a [1, 128] row. -/
def biasRow (b : (⟨S128, .f32⟩ : BufTy).Contents (Elt F)) : (⟨S1x128, .f32⟩ : BufTy).Contents (Elt F) :=
  shapeCast S1x128 b shapeCasts_S128_S1x128

/-- One layer over the extended reals: project, aggregate over the edges, add the bias row, tanh. -/
def layer (K : Nat) (h : (⟨2, ![100000, K]⟩ : Shape).Idx → EReal) (w : (⟨2, ![K, 128]⟩ : Shape).Idx → EReal)
    (b : (⟨S128, .f32⟩ : BufTy).Contents (Elt Ideal)) (ei : (⟨S2x1600000, .i32⟩ : BufTy).Contents (Elt Ideal)) :
    (⟨S100000x128, .f32⟩ : BufTy).Contents (Elt Ideal) :=
  GcnDense.biasTanh 100000 128 (agg (F := Ideal) (GcnDense.prod 100000 K 128 h w) (ends0 ei) (ends1 ei) (wgt ei)) (biasRow b)

/-- The two-layer network's output as one function of the six arguments. -/
def out (x : (⟨S100000x256, .f32⟩ : BufTy).Contents (Elt Ideal)) (ei : (⟨S2x1600000, .i32⟩ : BufTy).Contents (Elt Ideal))
    (w1 : (⟨S256x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal)) :
    (⟨S100000x128, .f32⟩ : BufTy).Contents (Elt Ideal) :=
  layer 128 (layer 256 x w1 b1 ei) w2 b2 ei

end Cert.KernelIdeal.Glue

end
-- ==== Proof.KernelChain.lean ====
/-
  The kernel's program read boundary by boundary, from the launch to the return.

  @main is: host operations on the edge list (endpoints with self-loops, degrees, edge weights) — region 0 (features times
  the first weights) — host operations (gather at the sources, scale, sum into the targets; the bias as a row) — region 1
  (bias and tanh) — region 2 (times the second weights) — the same host operations again — region 3 (bias and tanh).
  At each boundary the buffers a later stretch reads hold a named function of the six arguments: a host stretch's results
  are its operations applied to what the stretch found, a region's output array is what Proof/Proj0, Act1, Proj2, Act3 say,
  and every other buffer is as the stretch or region found it. The result buffer ends at `Glue.out` of the arguments.
-/
import proofs.«155350_j2662879724015_1_alg».proof.Proof.Relaunch
import proofs.«155350_j2662879724015_1_alg».proof.Proof.Proj0
import proofs.«155350_j2662879724015_1_alg».proof.Proof.Act1
import proofs.«155350_j2662879724015_1_alg».proof.Proof.Proj2
import proofs.«155350_j2662879724015_1_alg».proof.Proof.Act3
import proofs.«155350_j2662879724015_1_alg».proof.Proof.Glue
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.KernelIdeal.Glue

/-! ## The host stretches, for any float family -/

section Host

variable {F : FTy → Type} [FloatOps F]
variable (m : (ℓ : Loc nD τ sig) → Buf (Elt F) ℓ) (ρ : Dev nD → PrngReg) (c : Dev nD)

/-! ### Entering region 0: the edge list's functions, the float arguments untouched -/

/-- The reads a one-pass read-back leaves inside a concatenate's operand list (a slice, its reshape, the iota), by rewriting. -/
local macro "inner_reads" : tactic =>
  `(tactic| repeat (first
      | rw [nullary_result] | rw [unary_result] | rw [binary_result] | rw [reshape_result]
      | (rw [nullary_result_ne]; rotate_left; decide) | (rw [unary_result_ne]; rotate_left; decide)
      | (rw [binary_result_ne]; rotate_left; decide) | (rw [reshape_result_ne]; rotate_left; decide)))

theorem W3_ends0 : W3 m ρ c (Proc.devRef .tc main_v3) = ends0 (m ((c : Thread nD τ).loc main_arg1)) := by
  dsimp only [W3, W2, W1, hostOps0, hostOps0_1, hostOps0_2]
  after_results
  try rfl
theorem W3_ends1 : W3 m ρ c (Proc.devRef .tc main_v6) = ends1 (m ((c : Thread nD τ).loc main_arg1)) := by
  dsimp only [W3, W2, W1, hostOps0, hostOps0_1, hostOps0_2]
  after_results
  try rfl
set_option maxHeartbeats 8000000 in
theorem W3_wgt : W3 m ρ c (Proc.devRef .tc main_v29) = wgt (m ((c : Thread nD τ).loc main_arg1)) := by
  dsimp only [W3, W2, W1, hostOps0, hostOps0_1, hostOps0_2]
  after_results_simp
  inner_reads
  try rfl
theorem W3_arg0 : W3 m ρ c (Proc.devRef .tc main_arg0) = (m ((c : Thread nD τ).loc main_arg0)) := by
  dsimp only [W3, W2, W1, hostOps0, hostOps0_1, hostOps0_2]
  after_results
  try rfl
theorem W3_arg2 : W3 m ρ c (Proc.devRef .tc main_arg2) = (m ((c : Thread nD τ).loc main_arg2)) := by
  dsimp only [W3, W2, W1, hostOps0, hostOps0_1, hostOps0_2]
  after_results
  try rfl
theorem W3_arg3 : W3 m ρ c (Proc.devRef .tc main_arg3) = (m ((c : Thread nD τ).loc main_arg3)) := by
  dsimp only [W3, W2, W1, hostOps0, hostOps0_1, hostOps0_2]
  after_results
  try rfl
theorem W3_arg4 : W3 m ρ c (Proc.devRef .tc main_arg4) = (m ((c : Thread nD τ).loc main_arg4)) := by
  dsimp only [W3, W2, W1, hostOps0, hostOps0_1, hostOps0_2]
  after_results
  try rfl
theorem W3_arg5 : W3 m ρ c (Proc.devRef .tc main_arg5) = (m ((c : Thread nD τ).loc main_arg5)) := by
  dsimp only [W3, W2, W1, hostOps0, hostOps0_1, hostOps0_2]
  after_results
  try rfl

/-! ### Leaving region 0: only its output array changed -/

theorem W4_ends0 : W4 m ρ c (Proc.devRef .tc main_v3) = ends0 (m ((c : Thread nD τ).loc main_arg1)) := (W4_of_ne m ρ c main_v3 (by decide)).trans (W3_ends0 m ρ c)
theorem W4_ends1 : W4 m ρ c (Proc.devRef .tc main_v6) = ends1 (m ((c : Thread nD τ).loc main_arg1)) := (W4_of_ne m ρ c main_v6 (by decide)).trans (W3_ends1 m ρ c)
theorem W4_wgt : W4 m ρ c (Proc.devRef .tc main_v29) = wgt (m ((c : Thread nD τ).loc main_arg1)) := (W4_of_ne m ρ c main_v29 (by decide)).trans (W3_wgt m ρ c)
theorem W4_arg3 : W4 m ρ c (Proc.devRef .tc main_arg3) = (m ((c : Thread nD τ).loc main_arg3)) := (W4_of_ne m ρ c main_arg3 (by decide)).trans (W3_arg3 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)

/-! ### Entering region 1: the aggregation of region 0's output, the first bias as a row -/

set_option maxHeartbeats 4000000 in
theorem W5_agg : W5 m ρ c (Proc.devRef .tc main_v43)
    = agg (W4 m ρ c (Proc.devRef .tc main_v30)) (W4 m ρ c (Proc.devRef .tc main_v3)) (W4 m ρ c (Proc.devRef .tc main_v6)) (W4 m ρ c (Proc.devRef .tc main_v29)) := by
  dsimp only [W5, hostOps1]
  after_results_simp
  try rfl
theorem W5_bias : W5 m ρ c (Proc.devRef .tc main_v44) = biasRow (W4 m ρ c (Proc.devRef .tc main_arg3)) := by
  dsimp only [W5, hostOps1]
  after_results
  try rfl
theorem W5_keep_ends0 : W5 m ρ c (Proc.devRef .tc main_v3) = W4 m ρ c (Proc.devRef .tc main_v3) := by
  dsimp only [W5, hostOps1]
  after_results
  try rfl
theorem W5_keep_ends1 : W5 m ρ c (Proc.devRef .tc main_v6) = W4 m ρ c (Proc.devRef .tc main_v6) := by
  dsimp only [W5, hostOps1]
  after_results
  try rfl
theorem W5_keep_wgt : W5 m ρ c (Proc.devRef .tc main_v29) = W4 m ρ c (Proc.devRef .tc main_v29) := by
  dsimp only [W5, hostOps1]
  after_results
  try rfl
theorem W5_keep_arg4 : W5 m ρ c (Proc.devRef .tc main_arg4) = W4 m ρ c (Proc.devRef .tc main_arg4) := by
  dsimp only [W5, hostOps1]
  after_results
  try rfl
theorem W5_keep_arg5 : W5 m ρ c (Proc.devRef .tc main_arg5) = W4 m ρ c (Proc.devRef .tc main_arg5) := by
  dsimp only [W5, hostOps1]
  after_results
  try rfl

/-! ### Leaving regions 1 and 2: only their output arrays changed -/

theorem W6_ends0 : W6 m ρ c (Proc.devRef .tc main_v3) = ends0 (m ((c : Thread nD τ).loc main_arg1)) :=
  (W6_of_ne m ρ c main_v3 (by decide)).trans ((W5_keep_ends0 m ρ c).trans (W4_ends0 m ρ c))
theorem W6_ends1 : W6 m ρ c (Proc.devRef .tc main_v6) = ends1 (m ((c : Thread nD τ).loc main_arg1)) :=
  (W6_of_ne m ρ c main_v6 (by decide)).trans ((W5_keep_ends1 m ρ c).trans (W4_ends1 m ρ c))
theorem W6_wgt : W6 m ρ c (Proc.devRef .tc main_v29) = wgt (m ((c : Thread nD τ).loc main_arg1)) :=
  (W6_of_ne m ρ c main_v29 (by decide)).trans ((W5_keep_wgt m ρ c).trans (W4_wgt m ρ c))
theorem W6_arg4 : W6 m ρ c (Proc.devRef .tc main_arg4) = (m ((c : Thread nD τ).loc main_arg4)) :=
  (W6_of_ne m ρ c main_arg4 (by decide)).trans ((W5_keep_arg4 m ρ c).trans (W4_arg4 m ρ c))
theorem W6_arg5 : W6 m ρ c (Proc.devRef .tc main_arg5) = (m ((c : Thread nD τ).loc main_arg5)) :=
  (W6_of_ne m ρ c main_arg5 (by decide)).trans ((W5_keep_arg5 m ρ c).trans (W4_arg5 m ρ c))

theorem W7_ends0 : W7 m ρ c (Proc.devRef .tc main_v3) = ends0 (m ((c : Thread nD τ).loc main_arg1)) := (W7_of_ne m ρ c main_v3 (by decide)).trans (W6_ends0 m ρ c)
theorem W7_ends1 : W7 m ρ c (Proc.devRef .tc main_v6) = ends1 (m ((c : Thread nD τ).loc main_arg1)) := (W7_of_ne m ρ c main_v6 (by decide)).trans (W6_ends1 m ρ c)
theorem W7_wgt : W7 m ρ c (Proc.devRef .tc main_v29) = wgt (m ((c : Thread nD τ).loc main_arg1)) := (W7_of_ne m ρ c main_v29 (by decide)).trans (W6_wgt m ρ c)
theorem W7_arg5 : W7 m ρ c (Proc.devRef .tc main_arg5) = (m ((c : Thread nD τ).loc main_arg5)) := (W7_of_ne m ρ c main_arg5 (by decide)).trans (W6_arg5 m ρ c)

/-! ### Entering region 3: the aggregation of region 2's output, the second bias as a row -/

set_option maxHeartbeats 4000000 in
theorem W8_agg : W8 m ρ c (Proc.devRef .tc main_v59)
    = agg (W7 m ρ c (Proc.devRef .tc main_v46)) (W7 m ρ c (Proc.devRef .tc main_v3)) (W7 m ρ c (Proc.devRef .tc main_v6)) (W7 m ρ c (Proc.devRef .tc main_v29)) := by
  dsimp only [W8, hostOps3]
  after_results_simp
  try rfl
theorem W8_bias : W8 m ρ c (Proc.devRef .tc main_v60) = biasRow (W7 m ρ c (Proc.devRef .tc main_arg5)) := by
  dsimp only [W8, hostOps3]
  after_results
  try rfl

end Host

/-! ## The regions' output arrays, over the extended reals -/

section Ideal

variable (m : (ℓ : Loc nD τ sig) → Buf (Elt Ideal) ℓ) (ρ : Dev nD → PrngReg) (c : Dev nD)

/-- Region 0's output: the features times the first weights. -/
theorem W4_proj : W4 m ρ c (Proc.devRef .tc main_v30) = GcnDense.prod 100000 256 128 (m ((c : Thread nD τ).loc main_arg0)) (m ((c : Thread nD τ).loc main_arg2)) := by
  refine (W4_arr m ρ c 2).trans ?_
  refine (Proj0.final (V3 m ρ) c).trans ?_
  show GcnDense.prod 100000 256 128 (W3 m ρ c (Proc.devRef .tc main_arg0)) (W3 m ρ c (Proc.devRef .tc main_arg2)) = _
  rw [W3_arg0, W3_arg2]

/-- Region 1's output: the first layer. -/
theorem W6_layer : W6 m ρ c (Proc.devRef .tc main_v45) = layer 256 (m ((c : Thread nD τ).loc main_arg0)) (m ((c : Thread nD τ).loc main_arg2)) (m ((c : Thread nD τ).loc main_arg3)) (m ((c : Thread nD τ).loc main_arg1)) := by
  refine (W6_arr m ρ c 2).trans ?_
  refine (Act1.final (V5 m ρ) c).trans ?_
  show GcnDense.biasTanh 100000 128 (W5 m ρ c (Proc.devRef .tc main_v43)) (W5 m ρ c (Proc.devRef .tc main_v44)) = _
  rw [W5_agg, W5_bias, W4_proj, W4_ends0, W4_ends1, W4_wgt, W4_arg3]
  rfl

/-- Region 2's output: the first layer times the second weights. -/
theorem W7_proj : W7 m ρ c (Proc.devRef .tc main_v46)
    = GcnDense.prod 100000 128 128 (layer 256 (m ((c : Thread nD τ).loc main_arg0)) (m ((c : Thread nD τ).loc main_arg2)) (m ((c : Thread nD τ).loc main_arg3)) (m ((c : Thread nD τ).loc main_arg1))) (m ((c : Thread nD τ).loc main_arg4)) := by
  refine (W7_arr m ρ c 2).trans ?_
  refine (Proj2.final (V6 m ρ) c).trans ?_
  show GcnDense.prod 100000 128 128 (W6 m ρ c (Proc.devRef .tc main_v45)) (W6 m ρ c (Proc.devRef .tc main_arg4)) = _
  rw [W6_layer, W6_arg4]

/-- Region 3's output, the program's result: the second layer of the first. -/
theorem W9_out : W9 m ρ c (Proc.devRef .tc main_v61) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ?_
  refine (Act3.final (V8 m ρ) c).trans ?_
  show GcnDense.biasTanh 100000 128 (W8 m ρ c (Proc.devRef .tc main_v59)) (W8 m ρ c (Proc.devRef .tc main_v60)) = _
  rw [W8_agg, W8_bias, W7_proj, W7_ends0, W7_ends1, W7_wgt, W7_arg5]
  rfl

/-- The kernel's run: every weakly fair execution terminates with the result array at `Glue.out` of the arguments and the
    arguments as launched. -/
theorem run : θ_run defs (onTc (τ := τ) (main (F := Ideal))) ⟨m, fun _ => 0, ρ⟩ (fun r => ∀ c : Dev nD,
      r.2.mem ((c.tc : Thread nD τ).loc main_v61) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W9_out m ρ c), (h c).2⟩) (run_named m ρ)

end Ideal

end Cert.KernelIdeal.Chain

end
-- ==== Proof.RefChain.lean ====
/-
  The reference, stage by stage, is the same composition of functions as the kernel's program.

  Its host operations on the edge list (endpoints with self-loops, degrees, edge weights) and its gather–scale–scatter
  aggregation are, operation for operation, the shared definitions of Proof/Glue.lean; its `dot_general`s are the plain
  products of Proof/Dense.lean; and its bias step — the bias vector broadcast to a [1, 128] row, that row broadcast over
  the 100000 rows, added, tanh — reads at (r, q) as tanh(a(r, q) + b(q)), the bias-and-tanh of Proof/Dense.lean with the
  bias as a row. So the reference's result is `Glue.out` of its arguments.
  (tanh on the extended reals is defined by cases, so two spellings of tanh(a + b) are brought to the same text by
  rewriting, never compared by unfolding: unfolding would evaluate the aggregated sum a.)
-/
import proofs.«155350_j2662879724015_1_alg».proof.Proof.RefRead
import proofs.«155350_j2662879724015_1_alg».proof.Proof.Gen.KernelIdeal
import proofs.«155350_j2662879724015_1_alg».proof.Proof.Glue

noncomputable section

open Idealize.ShloMosaic Idealize.ShloMosaic.TcCoe Idealize.SL.Sem Idealize.ShloMosaic.ValueIdx

namespace Cert.ReferenceIdeal.Chain

open Cert.ReferenceIdeal Cert.ReferenceIdeal.Gen Cert.ReferenceIdeal.ReadP

/-! ## The shared host operations, for any float family -/

section Host

variable {F : FTy → Type} [FloatOps F]

theorem ends0_eq (x1 : (⟨S2x1600000, .i32⟩ : BufTy).Contents (Elt F)) : val_main_v3 (F := F) x1 = Cert.KernelIdeal.Glue.ends0 x1 := rfl
theorem ends1_eq (x1 : (⟨S2x1600000, .i32⟩ : BufTy).Contents (Elt F)) : val_main_v6 (F := F) x1 = Cert.KernelIdeal.Glue.ends1 x1 := rfl
theorem wgt_eq (x1 : (⟨S2x1600000, .i32⟩ : BufTy).Contents (Elt F)) : val_main_v29 (F := F) x1 = Cert.KernelIdeal.Glue.wgt x1 := rfl

/-- The first layer's aggregation is `agg` of the first product. -/
theorem agg1_eq (x0 : (⟨S100000x256, .f32⟩ : BufTy).Contents (Elt F)) (x1 : (⟨S2x1600000, .i32⟩ : BufTy).Contents (Elt F)) (x2 : (⟨S256x128, .f32⟩ : BufTy).Contents (Elt F)) :
    val_main_v43 (F := F) x0 x1 x2
      = Cert.KernelIdeal.Glue.agg (val_main_v30 (F := F) x0 x2) (val_main_v3 (F := F) x1) (val_main_v6 (F := F) x1) (val_main_v29 (F := F) x1) := rfl

/-- The second layer's aggregation is `agg` of the second product. -/
theorem agg2_eq (x0 : (⟨S100000x256, .f32⟩ : BufTy).Contents (Elt F)) (x1 : (⟨S2x1600000, .i32⟩ : BufTy).Contents (Elt F)) (x2 : (⟨S256x128, .f32⟩ : BufTy).Contents (Elt F))
    (x3 : (⟨S128, .f32⟩ : BufTy).Contents (Elt F)) (x4 : (⟨S128x128, .f32⟩ : BufTy).Contents (Elt F)) :
    val_main_v61 (F := F) x0 x1 x2 x3 x4
      = Cert.KernelIdeal.Glue.agg (val_main_v48 (F := F) x0 x1 x2 x3 x4) (val_main_v3 (F := F) x1) (val_main_v6 (F := F) x1) (val_main_v29 (F := F) x1) := rfl

end Host

/-! ## The dense pieces, over the extended reals -/

/-- A bias vector read at column q is its [1, 128] row read at (0, q). -/
theorem biasRow_at (b : (⟨S128, .f32⟩ : BufTy).Contents (Elt Ideal)) (j : S100000x128.Idx) (k : S128.Idx) (hk : (k 0).val = (j 1).val) :
    b k = Cert.KernelIdeal.Glue.biasRow b (ix2 (n0 := 1) (n1 := 128) 0 ⟨(j 1).val, (j 1).isLt⟩) := by
  unfold Cert.KernelIdeal.Glue.biasRow
  refine (shapeCast_apply b _ _ k ?_).symm
  rw [Shape.rowMajor_val_one, Shape.rowMajor_val_two]
  show (k 0).val = 0 * 128 + (j 1).val
  omega

theorem proj1_eq (x0 : (⟨S100000x256, .f32⟩ : BufTy).Contents (Elt Ideal)) (x2 : (⟨S256x128, .f32⟩ : BufTy).Contents (Elt Ideal)) :
    val_main_v30 (F := Ideal) x0 x2 = GcnDense.prod 100000 256 128 x0 x2 := by
  unfold val_main_v30
  exact GcnDense.dotGeneral_eq 100000 256 128 x0 x2

/-- The reference's first layer. -/
theorem layer1_eq (x0 : (⟨S100000x256, .f32⟩ : BufTy).Contents (Elt Ideal)) (x1 : (⟨S2x1600000, .i32⟩ : BufTy).Contents (Elt Ideal)) (x2 : (⟨S256x128, .f32⟩ : BufTy).Contents (Elt Ideal))
    (x3 : (⟨S128, .f32⟩ : BufTy).Contents (Elt Ideal)) :
    val_main_v47 (F := Ideal) x0 x1 x2 x3 = Cert.KernelIdeal.Glue.layer 256 x0 x2 x3 x1 := by
  funext j
  rw [val_main_v47_apply, val_main_v46_apply, val_main_v45_apply, val_main_v44_apply, agg1_eq, proj1_eq, ends0_eq, ends1_eq, wgt_eq]
  rw [Ideal.hostUnary_tanh_def, Ideal.addf_def, biasRow_at x3 j (idx_main_v44 (idx_main_v45 j)) rfl]
  unfold Cert.KernelIdeal.Glue.layer GcnDense.biasTanh
  rfl

theorem proj2_eq (x0 : (⟨S100000x256, .f32⟩ : BufTy).Contents (Elt Ideal)) (x1 : (⟨S2x1600000, .i32⟩ : BufTy).Contents (Elt Ideal)) (x2 : (⟨S256x128, .f32⟩ : BufTy).Contents (Elt Ideal))
    (x3 : (⟨S128, .f32⟩ : BufTy).Contents (Elt Ideal)) (x4 : (⟨S128x128, .f32⟩ : BufTy).Contents (Elt Ideal)) :
    val_main_v48 (F := Ideal) x0 x1 x2 x3 x4 = GcnDense.prod 100000 128 128 (val_main_v47 (F := Ideal) x0 x1 x2 x3) x4 := by
  unfold val_main_v48
  exact GcnDense.dotGeneral_eq 100000 128 128 _ x4

/-- The reference's result: the second layer of the first. -/
theorem out_eq (x0 : (⟨S100000x256, .f32⟩ : BufTy).Contents (Elt Ideal)) (x1 : (⟨S2x1600000, .i32⟩ : BufTy).Contents (Elt Ideal)) (x2 : (⟨S256x128, .f32⟩ : BufTy).Contents (Elt Ideal))
    (x3 : (⟨S128, .f32⟩ : BufTy).Contents (Elt Ideal)) (x4 : (⟨S128x128, .f32⟩ : BufTy).Contents (Elt Ideal)) (x5 : (⟨S128, .f32⟩ : BufTy).Contents (Elt Ideal)) :
    val_main_v65 (F := Ideal) x0 x1 x2 x3 x4 x5 = Cert.KernelIdeal.Glue.out x0 x1 x2 x3 x4 x5 := by
  funext j
  rw [val_main_v65_apply, val_main_v64_apply, val_main_v63_apply, val_main_v62_apply, agg2_eq, proj2_eq, layer1_eq, ends0_eq, ends1_eq, wgt_eq]
  rw [Ideal.hostUnary_tanh_def, Ideal.addf_def, biasRow_at x5 j (idx_main_v62 (idx_main_v63 j)) rfl]
  unfold Cert.KernelIdeal.Glue.out Cert.KernelIdeal.Glue.layer GcnDense.biasTanh
  rfl

/-- The term the reference's run ends at is `Glue.out` of the arguments. -/
theorem result_eq (m : (ℓ : Loc nD τ sig) → Buf (Elt Ideal) ℓ) (c : Dev nD) :
    Cert.ReferenceIdeal.ValueP.res_main_v65 m c
      = Cert.KernelIdeal.Glue.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  (val_main_v65_eq (F := Ideal) m c).trans (out_eq _ _ _ _ _ _)

end Cert.ReferenceIdeal.Chain

end
-- ==== Proof.lean ====
/-
  A two-layer graph convolution, h ↦ tanh(Â (h W) + b) applied twice, where Â is the edge list's symmetrically normalised
  adjacency with self-loops: the kernel's program computes the two dense projections h W and the two bias-and-tanh steps in
  row-tiled kernels (20 blocks of 5000 rows, operands of the products narrowed to bf16) and everything on the edge list —
  endpoints, degrees, edge weights, gather, scale, scatter-add — by host operations; the reference computes all of it by
  host operations.

  Over the extended reals the two are one function of the six arguments, `Glue.out`:
  * narrowing to bf16 is the identity there, a product accumulated onto zero is the product, and tiling the rows never
    splits the contracted axis, so each projection region leaves the plain product of the whole arrays (Proof/Dense.lean,
    Proof/Proj0.lean, Proof/Proj2.lean);
  * a [1, 128] bias row broadcast inside a block and a bias vector broadcast twice on the host read the same entry b(q), so
    each activation region leaves tanh(a(r, q) + b(q)) (Proof/Act1.lean, Proof/Act3.lean, Proof/RefChain.lean);
  * the edge-list operations are the same operations on both sides, carried as shared functions and never opened
    (Proof/Glue.lean, Proof/KernelChain.lean, Proof/RefChain.lean).
  No law used needs a finite operand, so the precondition is never opened. The idealization rewrote no operation, so
  `preserves` is trivial. The three frames are the generated ones (the reference's is its run with the result dropped).
-/
import proofs.«155350_j2662879724015_1_alg».proof.Defs
import proofs.«155350_j2662879724015_1_alg».proof.Proof.Gen.Kernel
import proofs.«155350_j2662879724015_1_alg».proof.Proof.Gen.Kernel.Skeleton
import proofs.«155350_j2662879724015_1_alg».proof.Proof.Gen.Kernel.Launch
import proofs.«155350_j2662879724015_1_alg».proof.Proof.Gen.Kernel.Points
import proofs.«155350_j2662879724015_1_alg».proof.Proof.Gen.Kernel.Frame
import proofs.«155350_j2662879724015_1_alg».proof.Proof.Gen.KernelIdeal
import proofs.«155350_j2662879724015_1_alg».proof.Proof.Gen.KernelIdeal.Skeleton
import proofs.«155350_j2662879724015_1_alg».proof.Proof.Gen.KernelIdeal.Launch
import proofs.«155350_j2662879724015_1_alg».proof.Proof.Gen.KernelIdeal.Points
import proofs.«155350_j2662879724015_1_alg».proof.Proof.Gen.KernelIdeal.Frame
import proofs.«155350_j2662879724015_1_alg».proof.Proof.Gen.ReferenceIdeal
import proofs.«155350_j2662879724015_1_alg».proof.Proof.Gen.Pre_finite_inputs
import proofs.«155350_j2662879724015_1_alg».proof.Proof.KernelChain
import proofs.«155350_j2662879724015_1_alg».proof.Proof.RefChain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with their result array at `Glue.out` of arguments that agree. -/
theorem algebraic : Cert.algebraic_KernelIdeal_ReferenceIdeal := by
  intro m ρ m' ρ' _ hagree
  refine ⟨_, Cert.KernelIdeal.Chain.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Chain.result_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
